-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S2048x64 : Shape := ⟨2, ![2048, 64]⟩
abbrev S2048x2048 : Shape := ⟨2, ![2048, 2048]⟩
abbrev S2048 : Shape := ⟨1, ![2048]⟩
abbrev S2048x1 : Shape := ⟨2, ![2048, 1]⟩
abbrev S64x2048 : Shape := ⟨2, ![64, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x2048, .f32⟩
  | .local _ .vmem, ⟨5, _⟩ => ⟨S2048x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  transposes_S2048x64_p1_0_S64x2048 : S2048x64.Transposes [1, 0] S64x2048
  inb_S2048x2048_S2048x2048_0_0 : ∀ a, (![0, 0] : Fin 2 → Nat) a + S2048x2048.size a ≤ S2048x2048.size a
  h_S2048x2048 : 0 < S2048x2048.numel
  dot_S2048x64_S64x2048_S2048x2048_1_0_0_1_n_n_wf : DotDims.WF S2048x64 S64x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x64, .f32⟩
  | .hbm, ⟨21, _⟩ => ⟨S8192x64, .f32⟩
  | .hbm, ⟨22, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.CosineSpec.lean ====
/-
  The function both programs compute, on the extended reals, stated once over abstract arrays.

  For a matrix `x` with 64 columns, the CLAMPED NORM of row `p` is
      max (√(Σ_l x[p,l]²)) ε,        ε the f32 word 0x322BCC77 (the float nearest 1e-8),
  the UNIT ROW is x[p,k] / (that norm), and the COSINE of row `p` of `x` with row `q` of `y` is
      Σ_k unitRow x p k · unitRow y q k.
  The result matrix holds at (p, q) the cosine of row p of the first argument and row q of the second.
  Every one of these depends on its matrix through ONE ROW only (`cosine_congr`): that is what lets a
  block of rows stand for the whole matrix when the result is computed tile by tile.
-/
import Idealize.ShloMosaic.PureOps.Ideal
import Idealize.ShloMosaic.PureOps.Ideal.Laws
import Idealize.ShloMosaic.Lib.ValueIdx

noncomputable section

open scoped BigOperators

namespace Cert.Cosine

open Idealize.ShloMosaic Idealize.ShloMosaic.ValueIdx

/-- The floor below which no row norm is let: the value of the f32 word both programs write for `1e-8`.
    Never evaluated: the same word stands on both sides. -/
abbrev normFloor : EReal := Ideal.ofBits .f32 0x322BCC77#32

/-- Row `p`'s Euclidean norm, clamped from below: `max (√ Σ_l x[p,l]²) ε`. -/
def clampedNorm {R : Nat} (x : (⟨2, ![R, 64]⟩ : Shape).Idx → EReal) (p : Fin R) : EReal :=
  max (Ideal.sqrt (∑ l : Fin 64, x (ix2 p l) * x (ix2 p l))) normFloor

/-- Entry `k` of row `p` divided by the row's clamped norm. -/
def unitRow {R : Nat} (x : (⟨2, ![R, 64]⟩ : Shape).Idx → EReal) (p : Fin R) (k : Fin 64) : EReal :=
  Ideal.div (x (ix2 p k)) (clampedNorm x p)

/-- The cosine of row `p` of `x` and row `q` of `y`: the inner product of the two unit rows. -/
def cosine {R R' : Nat} (x : (⟨2, ![R, 64]⟩ : Shape).Idx → EReal) (y : (⟨2, ![R', 64]⟩ : Shape).Idx → EReal)
    (p : Fin R) (q : Fin R') : EReal :=
  ∑ k : Fin 64, unitRow x p k * unitRow y q k

/-- The whole result: at `(p, q)` the cosine of row `p` of `a` and row `q` of `b`. -/
def cosineMatrix (a b : (⟨2, ![8192, 64]⟩ : Shape).Idx → EReal) : (⟨2, ![8192, 8192]⟩ : Shape).Idx → EReal :=
  fun i => cosine (R := 8192) (R' := 8192) a b (i 0) (i 1)

theorem cosineMatrix_ix2 (a b : (⟨2, ![8192, 64]⟩ : Shape).Idx → EReal) (p q : Fin 8192) :
    cosineMatrix a b (ix2 p q) = cosine a b p q := rfl

/-- The clamped norm of a row is a function of that row alone. -/
theorem clampedNorm_congr {R R' : Nat} {x : (⟨2, ![R, 64]⟩ : Shape).Idx → EReal} {x' : (⟨2, ![R', 64]⟩ : Shape).Idx → EReal}
    {p : Fin R} {p' : Fin R'} (h : ∀ k : Fin 64, x (ix2 p k) = x' (ix2 p' k)) : clampedNorm x p = clampedNorm x' p' := by
  unfold clampedNorm
  exact congrArg (fun s => max (Ideal.sqrt s) normFloor) (Finset.sum_congr rfl fun l _ => by rw [h l])

/-- So is the unit row. -/
theorem unitRow_congr {R R' : Nat} {x : (⟨2, ![R, 64]⟩ : Shape).Idx → EReal} {x' : (⟨2, ![R', 64]⟩ : Shape).Idx → EReal}
    {p : Fin R} {p' : Fin R'} (h : ∀ k : Fin 64, x (ix2 p k) = x' (ix2 p' k)) (k : Fin 64) : unitRow x p k = unitRow x' p' k := by
  unfold unitRow
  rw [h k, clampedNorm_congr h]

/-- The cosine of two rows depends on the two matrices through those two rows only: a block of rows cut out of
    a matrix gives, at the row's place inside the block, the cosine the whole matrix gives at the row's place in it. -/
theorem cosine_congr {R R' T T' : Nat} {x : (⟨2, ![R, 64]⟩ : Shape).Idx → EReal} {x' : (⟨2, ![T, 64]⟩ : Shape).Idx → EReal}
    {y : (⟨2, ![R', 64]⟩ : Shape).Idx → EReal} {y' : (⟨2, ![T', 64]⟩ : Shape).Idx → EReal}
    {p : Fin R} {p' : Fin T} {q : Fin R'} {q' : Fin T'}
    (hx : ∀ k : Fin 64, x (ix2 p k) = x' (ix2 p' k)) (hy : ∀ k : Fin 64, y (ix2 q k) = y' (ix2 q' k)) :
    cosine x y p q = cosine x' y' p' q' := by
  unfold cosine
  exact Finset.sum_congr rfl fun k _ => by rw [unitRow_congr hx k, unitRow_congr hy k]

end Cert.Cosine

end
-- ==== Proof.TileCosine.lean ====
/-
  One tile of the kernel: what the body stores, entry by entry.

  The body loads a block `x0` of 2048 rows of the first matrix and a block `x1` of 2048 rows of the second, and stores
  one 2048 × 2048 tile. Entry `(p, q)` of the tile is the contraction over the 64 columns of the two row-normalized
  blocks, the second transposed first; a normalized block divides each entry by its row's norm — the square root of the
  row's sum of squares, kept as a column — clamped from below by ε and spread back over the row. The two narrowings to
  bf16 change nothing on the extended reals, and the accumulator the contraction starts from is the zero word. So the
  entry is the cosine of row `p` of `x0` and row `q` of `x1`.
-/
import proofs.«112950_j3049426780789_1_alg».proof.Proof.Gen.KernelIdeal.Skeleton
import proofs.«112950_j3049426780789_1_alg».proof.Proof.CosineSpec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Tile

open Cert.KernelIdeal Cert.KernelIdeal.Gen Cert.Cosine
open Idealize.ShloMosaic Idealize.ShloMosaic.ValueIdx

/-! ## The row sums of squares, kept as a column -/

/-- The lane sum of the squared block, recast to a column, holds at row `p` the sum of row `p`'s squares. -/
theorem sumsq_column (x : FVec Ideal S2048x64 .f32) (p : Fin 2048) (z : Fin 1) :
    shapeCast S2048x1 (multiReduction .add [1] S2048 (mulf x x) 0x00000000#32 reduces_S2048x64_S2048 (.inl rfl) rfl)
        shapeCasts_S2048_S2048x1 (ix2 p z)
      = ∑ l : Fin 64, x (ix2 p l) * x (ix2 p l) := by
  refine (shapeCast_apply _ shapeCasts_S2048_S2048x1 (ix2 p z) (ix1 p) ?_).trans ?_
  · rw [Shape.rowMajor_val_one, Shape.rowMajor_val_two]
    show p.val = p.val * 1 + z.val
    have := z.isLt
    omega
  · refine (Ideal.multiReduction_add_single (mulf x x) 0x00000000#32 reduces_S2048x64_S2048 (.inl rfl) rfl (ix1 p)).trans ?_
    refine Finset.sum_congr rfl fun l _ => ?_
    have e : reduces_S2048x64_S2048.lift (ix1 p) l = ix2 p l :=
      funext fun a => Fin.ext (by match a with | ⟨0, _⟩ => rfl | ⟨1, _⟩ => rfl)
    rw [e]
    rfl

/-- The column of clamped norms: the square root of that sum against ε, at row `p`. -/
theorem norm_column (x : FVec Ideal S2048x64 .f32) (p : Fin 2048) (z : Fin 1) :
    maximumf (sqrt (shapeCast S2048x1 (multiReduction .add [1] S2048 (mulf x x) 0x00000000#32 reduces_S2048x64_S2048 (.inl rfl) rfl)
        shapeCasts_S2048_S2048x1)) (broadcast S2048x1 (Scalar.ofBits .f32 0x322BCC77#32)) (ix2 p z)
      = clampedNorm x p := by
  show max (Ideal.sqrt (shapeCast S2048x1 (multiReduction .add [1] S2048 (mulf x x) 0x00000000#32 reduces_S2048x64_S2048 (.inl rfl) rfl)
        shapeCasts_S2048_S2048x1 (ix2 p z))) (Ideal.ofBits .f32 0x322BCC77#32) = _
  rw [sumsq_column]
  rfl

/-! ## A block divided by a column spread over its rows -/

/-- A column `N` spread over 64 lanes and divided into the block: entry `(p, k)` over `N` at row `p`. -/
theorem div_spread (x : FVec Ideal S2048x64 .f32) (N : FVec Ideal S2048x1 .f32) (p : Fin 2048) (k : Fin 64) :
    divf x (broadcastTo S2048x64 N broadcasts_S2048x1_S2048x64) (ix2 p k)
      = Ideal.div (x (ix2 p k)) (N (ix2 p (0 : Fin 1))) := by
  show Ideal.div (x (ix2 p k)) (broadcastTo S2048x64 N broadcasts_S2048x1_S2048x64 (ix2 p k)) = _
  refine congrArg (Ideal.div (x (ix2 p k))) ?_
  refine broadcastTo_apply N broadcasts_S2048x1_S2048x64 (ix2 p k) (ix2 p (0 : Fin 1)) fun a => ?_
  match a with
  | ⟨0, _⟩ => show p.val = if (2048 : Nat) = 1 then 0 else p.val; rw [if_neg (by decide)]
  | ⟨1, _⟩ => show 0 = if (1 : Nat) = 1 then 0 else k.val; rw [if_pos rfl]

/-- The row-normalized block at `(p, k)`: the unit row. -/
theorem normalized_block (x : FVec Ideal S2048x64 .f32) (p : Fin 2048) (k : Fin 64) :
    divf x (broadcastTo S2048x64 (maximumf (sqrt (shapeCast S2048x1 (multiReduction .add [1] S2048 (mulf x x) 0x00000000#32
        reduces_S2048x64_S2048 (.inl rfl) rfl) shapeCasts_S2048_S2048x1)) (broadcast S2048x1 (Scalar.ofBits .f32 0x322BCC77#32)))
        broadcasts_S2048x1_S2048x64) (ix2 p k)
      = unitRow x p k := by
  refine (div_spread x _ p k).trans ?_
  unfold unitRow
  exact congrArg (Ideal.div (x (ix2 p k))) (norm_column x p 0)

/-! ## The contraction -/

theorem lhs_axis0 (i : S2048x2048.Idx) (c : dot_S2048x64_S64x2048_S2048x2048_1_0_0_1_n_n.contr.Idx) :
    (dot_S2048x64_S64x2048_S2048x2048_1_0_0_1_n_n.lhsIdx i c 0).val = (i 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl
theorem lhs_axis1 (i : S2048x2048.Idx) (c : dot_S2048x64_S64x2048_S2048x2048_1_0_0_1_n_n.contr.Idx) :
    (dot_S2048x64_S64x2048_S2048x2048_1_0_0_1_n_n.lhsIdx i c 1).val = (c ⟨0, by decide⟩).val :=
  dot_S2048x64_S64x2048_S2048x2048_1_0_0_1_n_n.lhsIdx_val_of_single rfl i c
theorem rhs_axis0 (i : S2048x2048.Idx) (c : dot_S2048x64_S64x2048_S2048x2048_1_0_0_1_n_n.contr.Idx) :
    (dot_S2048x64_S64x2048_S2048x2048_1_0_0_1_n_n.rhsIdx i c 0).val = (c ⟨0, by decide⟩).val :=
  dot_S2048x64_S64x2048_S2048x2048_1_0_0_1_n_n.rhsIdx_val_of_single rfl i c
theorem rhs_axis1 (i : S2048x2048.Idx) (c : dot_S2048x64_S64x2048_S2048x2048_1_0_0_1_n_n.contr.Idx) :
    (dot_S2048x64_S64x2048_S2048x2048_1_0_0_1_n_n.rhsIdx i c 1).val = (i 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-- The matrix product into the zero accumulator, at `(p, q)`: the sum over the 64 columns of the left operand's
    row `p` against the right operand's column `q`. -/
theorem product_at (A : FVec Ideal S2048x64 .bf16) (B : FVec Ideal S64x2048 .bf16) (p q : Fin 2048) :
    matmul dot_S2048x64_S64x2048_S2048x2048_1_0_0_1_n_n none A B (constant S2048x2048 .f32 0x00000000#32) (ix2 p q)
      = ∑ k : Fin 64, A (ix2 p k) * B (ix2 k q) := by
  simp only [matmul]
  rw [Ideal.matmul_constant_zero_apply,
    ← Equiv.sum_comp (contrEquiv1 dot_S2048x64_S64x2048_S2048x2048_1_0_0_1_n_n 64 rfl rfl).symm]
  refine Finset.sum_congr rfl fun k _ => ?_
  have hk := contrEquiv1_symm_val dot_S2048x64_S64x2048_S2048x2048_1_0_0_1_n_n 64 rfl rfl k
  have el : dot_S2048x64_S64x2048_S2048x2048_1_0_0_1_n_n.lhsIdx (ix2 p q)
      ((contrEquiv1 dot_S2048x64_S64x2048_S2048x2048_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2048x64_S64x2048_S2048x2048_1_0_0_1_n_n.rhsIdx (ix2 p q)
      ((contrEquiv1 dot_S2048x64_S64x2048_S2048x2048_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The tile -/

/-- THE TILE at `(p, q)` is the cosine of row `p` of the first block and row `q` of the second. -/
theorem tile_eq (x0 x1 : Vec Ideal S2048x64 .f32) (p q : Fin 2048) :
    k0_pay1 (F := Ideal) x0 x1 (ix2 p q) = cosine x0 x1 p q := by
  unfold k0_pay1
  refine (product_at _ _ p q).trans ?_
  unfold cosine
  refine Finset.sum_congr rfl fun k _ => ?_
  refine congrArg₂ (· * ·) ?_ ?_
  · exact normalized_block x0 p k
  · refine (transpose_ix2_apply _ transposes_S2048x64_p1_0_S64x2048 k q).trans ?_
    exact normalized_block x1 q k

end Cert.KernelIdeal.Tile

end
-- ==== Proof.WholeCosine.lean ====
/-
  From tiles to the whole result.

  The grid is 4 × 4. At point `t` with block coordinates `(I, J)` the first input window holds rows
  `2048·I … 2048·I + 2047` of the first matrix, the second input window rows `2048·J … 2048·J + 2047` of the second,
  and the output window is the tile of rows `2048·I …` and columns `2048·J …` of the result. The cosine of two rows
  depends on the matrices through those rows alone, so the tile the body stores is exactly that tile of the cosine
  matrix of the two WHOLE arguments; the sixteen tiles cover the result, so the result is the cosine matrix.
-/
import proofs.«112950_j3049426780789_1_alg».proof.Proof.Gen.KernelIdeal.Value
import proofs.«112950_j3049426780789_1_alg».proof.Proof.TileCosine

noncomputable section

namespace Cert.KernelIdeal.Whole

open Cert.KernelIdeal Cert.KernelIdeal.Gen Cert.Cosine
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the sixteen points: the first input follows the output's row block and the second input
    the output's column block, neither moves along the 64 columns, and the output's block coordinates stay below 4. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every one of the 4 × 4 tiles is some point's. -/
theorem index_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- WHAT POINT `t` WRITES BACK is tile `t` of the cosine matrix of the two argument arrays. -/
theorem flushed_eq (c : Dev nD) (t : Fin cfg0.N) :
    (dats m 0 c).flushed 2 t
      = ((cfg0.win 2).blk t).view.read (Elt Ideal) (cosineMatrix (V m c main_arg0) (V m c main_arg1)) := by
  rw [Cert.KernelIdeal.Value.flushed2]
  unfold out0_2
  rw [View.canon_unit_zero zero_offsets]
  simp only [View.ld_unit_zero (S := S2048x64) zero_offsets]
  obtain ⟨e0, e1, e2, e3, b0, b1⟩ := index_facts t
  funext j
  obtain ⟨p, q, rfl⟩ : ∃ (p q : Fin 2048), j = ix2 p q := ⟨j 0, j 1, eq_ix2 j⟩
  show k0_pay1 (F := Ideal) (iblk m c 0 t) (iblk m c 1 t) (ix2 p q)
    = cosineMatrix (V m c main_arg0) (V m c main_arg1) (((cfg0.win 2).blk t).view.emb (ix2 p q))
  refine (Tile.tile_eq (iblk m c 0 t) (iblk m c 1 t) p q).trans ?_
  have hp := p.isLt
  have hq := q.isLt
  have he : ((cfg0.win 2).blk t).view.emb (ix2 p q)
      = ix2 (⟨win0_2.index t (0 : Fin 2) * 2048 + p.val, by omega⟩ : Fin 8192)
          (⟨win0_2.index t (1 : Fin 2) * 2048 + q.val, by omega⟩ : Fin 8192) := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 2048 + 1 * q.val = win0_2.index t (1 : Fin 2) * 2048 + q.val; omega
  refine Eq.trans ?_ (congrArg (cosineMatrix (V m c main_arg0) (V m c main_arg1)) he).symm
  rw [cosineMatrix_ix2]
  refine cosine_congr (fun k => ?_) (fun k => ?_)
  · show V m c main_arg0 (((cfg0.win 0).blk t).view.emb (ix2 p k)) = V m c main_arg0 (ix2 _ k)
    refine congrArg (V m c main_arg0) (funext fun a => Fin.ext ?_)
    match a with
    | ⟨0, _⟩ => show win0_0.index t (0 : Fin 2) * 2048 + 1 * p.val = win0_2.index t (0 : Fin 2) * 2048 + p.val; omega
    | ⟨1, _⟩ => show win0_0.index t (1 : Fin 2) * 64 + 1 * k.val = k.val; omega
  · show V m c main_arg1 (((cfg0.win 1).blk t).view.emb (ix2 q k)) = V m c main_arg1 (ix2 _ k)
    refine congrArg (V m c main_arg1) (funext fun a => Fin.ext ?_)
    match a with
    | ⟨0, _⟩ => show win0_1.index t (0 : Fin 2) * 2048 + 1 * q.val = win0_2.index t (1 : Fin 2) * 2048 + q.val; omega
    | ⟨1, _⟩ => show win0_1.index t (1 : Fin 2) * 64 + 1 * k.val = k.val; omega

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v0).slice (win0_2.rect t)).set ↔ _
  rw [View.set_slice_whole, Rect.mem_set_unit]
  exact Iff.rfl

/-- Every index of the result is in the tile of the point whose block coordinates are its two quotients by 2048. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- THE RESULT ARRAY after the run is the cosine matrix of the two argument arrays. -/
theorem final (c : Dev nD) :
    (dats m 0 c).arrAt 2 cfg0.N
      = cosineMatrix (m ((c : Thread nD τ).loc main_arg0)) (m ((c : Thread nD τ).loc main_arg1)) :=
  (dats m 0 c).arrAt_eq_of_cover 2 _ (fun t _ => flushed_eq m c t) covered

/-- The kernel's run, read: the result at the cosine matrix of the arguments, the arguments unchanged. -/
theorem run : θ_run defs (onTc (τ := τ) (main (F := Ideal))) ⟨m, fun _ => 0, ρ⟩ fun r => ∀ c : Dev nD,
      r.2.mem ((c : Thread nD τ).loc main_v0)
        = cosineMatrix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.ReferenceCosine.lean ====
/-
  The reference, read operation by operation, is the cosine matrix.

  Its last operation contracts the two row-normalized matrices over their 64 columns; each normalized matrix
  divides an entry by its row's norm — the square root of the row's sum of squares, started from the zero word —
  clamped from below by ε. Entry by entry that is `unitRow`, and the contraction is `cosine`.
-/
import proofs.«112950_j3049426780789_1_alg».proof.Proof.Gen.ReferenceIdeal.Read
import proofs.«112950_j3049426780789_1_alg».proof.Proof.CosineSpec

noncomputable section

open scoped BigOperators

namespace Cert.ReferenceIdeal.Cosine

open Cert.ReferenceIdeal Cert.ReferenceIdeal.Gen Cert.ReferenceIdeal.Read Cert.Cosine
open Idealize.ShloMosaic Idealize.ShloMosaic.ValueIdx

/-- Through the two broadcasts and back, the index the row sum of the FIRST matrix is taken at, for entry `(p, k)`,
    is row `p`; its `l`-th summand sits at `(p, l)`. -/
theorem row_idx0 (p : Fin 8192) (k l : Fin 64) :
    idx_main_call0_v1 (idx_main_call0_v2 (idx_main_v3 (ix2 p k))) l = ix2 p l :=
  funext fun a => Fin.ext (by match a with | ⟨0, _⟩ => rfl | ⟨1, _⟩ => rfl)

/-- The same for the SECOND matrix. -/
theorem row_idx1 (p : Fin 8192) (k l : Fin 64) :
    idx_main_call1_v1 (idx_main_call1_v2 (idx_main_v8 (ix2 p k))) l = ix2 p l :=
  funext fun a => Fin.ext (by match a with | ⟨0, _⟩ => rfl | ⟨1, _⟩ => rfl)

/-- The first normalized matrix at `(p, k)`: entry `(p, k)` over row `p`'s clamped norm. -/
theorem normalized0 (x0 : (⟨S8192x64, .f32⟩ : BufTy).Contents (Elt Ideal)) (p : Fin 8192) (k : Fin 64) :
    val_main_v4 (F := Ideal) x0 (ix2 p k) = unitRow x0 p k := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, row_idx0, Ideal.hostDivf_def, Ideal.maximumf_def, Ideal.hostUnary_sqrt_def,
    Ideal.ofBits_def, Ideal.mulf_def, Ideal.ofBits_zero_f32, zero_add]
  rfl

/-- The second normalized matrix at `(q, k)`. -/
theorem normalized1 (x1 : (⟨S8192x64, .f32⟩ : BufTy).Contents (Elt Ideal)) (q : Fin 8192) (k : Fin 64) :
    val_main_v9 (F := Ideal) x1 (ix2 q k) = unitRow x1 q k := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, row_idx1, Ideal.hostDivf_def, Ideal.maximumf_def, Ideal.hostUnary_sqrt_def,
    Ideal.ofBits_def, Ideal.mulf_def, Ideal.ofBits_zero_f32, zero_add]
  rfl

/-- The contraction's left and right operand indices at result `(p, q)` and column `k`: `(p, k)` and `(q, k)`. -/
theorem lidx_eq (p q : Fin 8192) (k : Fin 64) : lidx_main_v10 (ix2 p q) k = ix2 p k :=
  funext fun a => Fin.ext (by match a with | ⟨0, _⟩ => rfl | ⟨1, _⟩ => rfl)
theorem ridx_eq (p q : Fin 8192) (k : Fin 64) : ridx_main_v10 (ix2 p q) k = ix2 q k :=
  funext fun a => Fin.ext (by match a with | ⟨0, _⟩ => rfl | ⟨1, _⟩ => rfl)

/-- THE REFERENCE'S RESULT is the cosine matrix of its two arguments. -/
theorem result_eq (x0 x1 : (⟨S8192x64, .f32⟩ : BufTy).Contents (Elt Ideal)) :
    val_main_v10 (F := Ideal) x0 x1 = cosineMatrix x0 x1 := by
  funext i
  obtain ⟨p, q, rfl⟩ : ∃ (p q : Fin 8192), i = ix2 p q := ⟨i 0, i 1, eq_ix2 i⟩
  rw [val_main_v10_apply, cosineMatrix_ix2]
  unfold cosine
  exact Finset.sum_congr rfl fun k _ => by rw [lidx_eq, ridx_eq, normalized0, normalized1]

end Cert.ReferenceIdeal.Cosine

end
-- ==== Proof.lean ====
/-
  Cosine similarity of the rows of two 8192 × 64 matrices: a tiled kernel against the normalize-then-multiply
  reference, over the extended reals.

  Both programs compute, at `(p, q)`,
      Σ_k  A[p,k] / max(√(Σ_l A[p,l]²), ε)  ·  B[q,k] / max(√(Σ_l B[q,l]²), ε),      ε the f32 word of 1e-8.
  The reference does it on the whole matrices: two row norms, two quotients, one contraction over the 64 columns
  (Proof/ReferenceCosine.lean reads its run operation by operation). The kernel does it on a 4 × 4 grid of
  2048 × 2048 tiles, each from 2048 rows of A and 2048 rows of B: it normalizes the two row blocks, narrows them to bf16
  (the identity on the extended reals), transposes the second and multiplies into a zero accumulator
  (Proof/TileCosine.lean). Since a row's norm and a row's unit vector depend on the matrix through that row alone, a
  tile computed from row blocks is the tile of the matrix computed from whole matrices, and the sixteen tiles fill the
  result (Proof/WholeCosine.lean). No law of the extended reals beyond reading each operation at an index is used: the
  two sides are the same sums of the same products, term by term, so the finiteness of the inputs is never opened.

  The three frames are the generated ones (the reference's is its generated run with the result dropped), and the
  idealized kernel is the kernel's own text read at the ideal instance, so there is nothing to preserve.
-/
import proofs.«112950_j3049426780789_1_alg».proof.Defs
import proofs.«112950_j3049426780789_1_alg».proof.Proof.Gen.Kernel
import proofs.«112950_j3049426780789_1_alg».proof.Proof.Gen.Kernel.Skeleton
import proofs.«112950_j3049426780789_1_alg».proof.Proof.Gen.Kernel.Launch
import proofs.«112950_j3049426780789_1_alg».proof.Proof.Gen.Kernel.Points
import proofs.«112950_j3049426780789_1_alg».proof.Proof.Gen.Kernel.Frame
import proofs.«112950_j3049426780789_1_alg».proof.Proof.Gen.KernelIdeal
import proofs.«112950_j3049426780789_1_alg».proof.Proof.Gen.KernelIdeal.Skeleton
import proofs.«112950_j3049426780789_1_alg».proof.Proof.Gen.KernelIdeal.Launch
import proofs.«112950_j3049426780789_1_alg».proof.Proof.Gen.KernelIdeal.Points
import proofs.«112950_j3049426780789_1_alg».proof.Proof.Gen.KernelIdeal.Frame
import proofs.«112950_j3049426780789_1_alg».proof.Proof.Gen.ReferenceIdeal
import proofs.«112950_j3049426780789_1_alg».proof.Proof.Gen.Pre_finite_inputs
import proofs.«112950_j3049426780789_1_alg».proof.Proof.Gen.KernelIdeal.Value
import proofs.«112950_j3049426780789_1_alg».proof.Proof.Gen.ReferenceIdeal.Run
import proofs.«112950_j3049426780789_1_alg».proof.Proof.Gen.ReferenceIdeal.Read
import proofs.«112950_j3049426780789_1_alg».proof.Proof.WholeCosine
import proofs.«112950_j3049426780789_1_alg».proof.Proof.ReferenceCosine
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the
    cosine matrix of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.ReferenceIdeal.Cosine.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
